-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x1 : S_.BroadcastsInDim S1600000x1 (![] : Fin 0 → Fin S1600000x1.rank)
  reducesTo_S1600000x1_S_d0_1 : S1600000x1.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : FVec F S1600000x1 .f32) (main_arg2 : IVec S1600000 32) (main_arg3 : IVec S1600000 32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x1 .f32 := Host.absf main_arg1
  let main_cst_0 : FVec F S_ .f32 := constant S_ .f32 0x7F800000#32
  let main_v5 : FVec F S1600000x1 .f32 := broadcastInDim S1600000x1 ![] bcast_S_S1600000x1 main_cst_0
  let main_v6 : IVec S1600000x1 1 := cmpf .olt main_v4 main_v5
  let main_c_1 : IVec S_ 1 := constantI S_ 1 1#1
  let main_v7 : IVec S_ 1 := (fun x v => Host.reduce IntOp.andi x v reducesTo_S1600000x1_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x64 : Shape := ⟨2, ![1600000, 64]⟩
abbrev S1x64 : Shape := ⟨2, ![1, 64]⟩
abbrev S6400x64 : Shape := ⟨2, ![6400, 64]⟩
abbrev S6400x1 : Shape := ⟨2, ![6400, 1]⟩

abbrev nBuf : Space → Nat
  | .hbm => 21
  | .vmem => 8
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S1x64, .f32⟩
  | .hbm, ⟨16, _⟩ => ⟨S1600000x64, .f32⟩
  | .hbm, ⟨17, _⟩ => ⟨S_, .f32⟩
  | .hbm, ⟨18, _⟩ => ⟨S100000x64, .f32⟩
  | .hbm, ⟨19, _⟩ => ⟨S1600000x1, .i32⟩
  | .hbm, ⟨20, _⟩ => ⟨S100000x64, .f32⟩
  | .local _ .vmem, ⟨0, _⟩ => ⟨S6400x64, .f32⟩
  | .local _ .vmem, ⟨1, _⟩ => ⟨S6400x64, .f32⟩
  | .local _ .vmem, ⟨2, _⟩ => ⟨S6400x1, .f32⟩
  | .local _ .vmem, ⟨3, _⟩ => ⟨S6400x1, .f32⟩
  | .local _ .vmem, ⟨4, _⟩ => ⟨S64x64, .f32⟩
  | .local _ .vmem, ⟨5, _⟩ => ⟨S1x64, .f32⟩
  | .local _ .vmem, ⟨6, _⟩ => ⟨S6400x64, .f32⟩
  | .local _ .vmem, ⟨7, _⟩ => ⟨S6400x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  inb_S6400x1_S6400x1_0_0 : ∀ a, (![0, 0] : Fin 2 → Nat) a + S6400x1.size a ≤ S6400x1.size a
  h_S6400x1 : 0 < S6400x1.numel
  broadcasts_S6400x1_S6400x64 : S6400x1.Broadcasts S6400x64
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S1600000x1.size a
  hwx0_1 : ∀ i : grid0.Coords, EltTy.bits .f32 = 32 ∨ (Rect.block (s := S1600000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x64.size a ≤ S1600000x64.size a
  hwx0_4 : ∀ i : grid0.Coords, EltTy.bits .f32 = 32 ∨ (Rect.block (s := S1600000x64) S6400x64.size (cc0_transform_4 i) (hinb0_4 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v6) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S6400x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000x1 : Shape := ⟨2, ![1600000, 1]⟩
abbrev S1600000 : Shape := ⟨1, ![1600000]⟩
abbrev S64x64 : Shape := ⟨2, ![64, 64]⟩
abbrev S64 : Shape := ⟨1, ![64]⟩
abbrev S1x64 : Shape := ⟨2, ![1, 64]⟩
abbrev S_ : Shape := ⟨0, ![]⟩
abbrev S1600000x64 : Shape := ⟨2, ![1600000, 64]⟩

abbrev nBuf : Space → Nat
  | .hbm => 25
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x1, .f32⟩
  | .hbm, ⟨2, _⟩ => ⟨S1600000, .i32⟩
  | .hbm, ⟨3, _⟩ => ⟨S1600000, .i32⟩
  | .hbm, ⟨4, _⟩ => ⟨S64x64, .f32⟩
  | .hbm, ⟨5, _⟩ => ⟨S64, .f32⟩
  | .hbm, ⟨6, _⟩ => ⟨S100000x64, .f32⟩
  | .hbm, ⟨7, _⟩ => ⟨S1x64, .f32⟩
  | .hbm, ⟨8, _⟩ => ⟨S100000x64, .f32⟩
  | .hbm, ⟨9, _⟩ => ⟨S100000x64, .f32⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x64, .f32⟩
  | .hbm, ⟨19, _⟩ => ⟨S1600000x64, .f32⟩
  | .hbm, ⟨20, _⟩ => ⟨S1600000x64, .f32⟩
  | .hbm, ⟨21, _⟩ => ⟨S_, .f32⟩
  | .hbm, ⟨22, _⟩ => ⟨S100000x64, .f32⟩
  | .hbm, ⟨23, _⟩ => ⟨S1600000x1, .i32⟩
  | .hbm, ⟨24, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x64_S64x64_S100000x64_1_0_0_1_n_n_wf : DotDims.WF S100000x64 S64x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.LibContract.lean ====
import Idealize.ShloMosaic.PureOps.Ideal.Laws
import Idealize.ShloMosaic.Lib.ValueIdx

/-!
# The plain contraction `[M, K] × [K, N]` read at an entry, on the extended reals

`DotDims.plain M K N` has the fields of every printed `…_1_0_0_1_n_n` record of rank-2 operands (contract the left
operand's axis 1 with the right operand's axis 0, no batch axes). Over it the host's `dot_general` and a kernel's
`tpu.matmul` into the zero splat are both, at entry `(p, q)`, the sum over `k` of `a[p, k] · b[k, q]`.
-/

noncomputable section

namespace Cert.LibDense

open Idealize.ShloMosaic Idealize.ShloMosaic.ValueIdx

/-! ## The operand indices of the plain contraction, axis by axis

At result index `j` and contraction index `c` the left operand is read at `(j 0, c)` and the right one at `(c, j 1)`:
a kept axis reads the result index at its place, the contracted axis reads the one coordinate of `c`. -/

/-- The left operand's row is the result's row. -/
theorem plain_lhs_0 (M K N : Nat) (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction index's coordinate. -/
theorem plain_lhs_1 (M K N : Nat) (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row is the contraction index's coordinate. -/
theorem plain_rhs_0 (M K N : Nat) (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column is the result's column. -/
theorem plain_rhs_1 (M K N : Nat) (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the one-axis contraction index, re-indexed by its coordinate `k : Fin K` and with both operand
    indices read off: `∑ k, a[p, k] · b[k, q]`. -/
theorem plain_sum (M K N : Nat) {φ₁ φ₂ : FTy} (a : FVec Ideal (⟨2, ![M, K]⟩ : Shape) φ₁)
    (b : FVec Ideal (⟨2, ![K, N]⟩ : Shape) φ₂) (p : Fin M) (q : Fin N) :
    (∑ c : (DotDims.plain M K N).contr.Idx,
        a ((DotDims.plain M K N).lhsIdx (ix2 p q) c) * b ((DotDims.plain M K N).rhsIdx (ix2 p q) c))
      = ∑ k : Fin K, a (ix2 p k) * b (ix2 k q) := by
  rw [← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 p q) ((ValueIdx.contrEquiv1 (DotDims.plain M K N) K rfl rfl).symm k)
      = ix2 p k := funext fun x => Fin.ext (by
    match x with
    | ⟨0, _⟩ => exact plain_lhs_0 M K N _ _
    | ⟨1, _⟩ => exact (plain_lhs_1 M K N _ _).trans hk)
  have er : (DotDims.plain M K N).rhsIdx (ix2 p q) ((ValueIdx.contrEquiv1 (DotDims.plain M K N) K rfl rfl).symm k)
      = ix2 k q := funext fun x => Fin.ext (by
    match x with
    | ⟨0, _⟩ => exact (plain_rhs_0 M K N _ _).trans hk
    | ⟨1, _⟩ => exact plain_rhs_1 M K N _ _)
  rw [el, er]

/-! ## The contraction read at an entry -/

/-- The host's `dot_general` over the plain contraction, at entry `(p, q)`: `∑ k, a[p, k] · b[k, q]`. -/
theorem dotGeneral_plain_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    Host.dotGeneral (DotDims.plain M K N) prec a b (ix2 p q) = ∑ k : Fin K, a (ix2 p k) * b (ix2 k q) := by
  simp only [Host.dotGeneral]
  rw [Ideal.dotGeneral_apply]
  exact plain_sum M K N a b p q

/-- A kernel's `tpu.matmul` over the plain contraction into the zero splat, at entry `(p, q)`: the same sum. -/
theorem matmul_plain_zero_apply (M K N : Nat) {φ₁ φ₂ : FTy} (prec : Option ContractPrecision)
    (a : FVec Ideal (⟨2, ![M, K]⟩ : Shape) φ₁) (b : FVec Ideal (⟨2, ![K, N]⟩ : Shape) φ₂) (p : Fin M) (q : Fin N) :
    matmul (DotDims.plain M K N) prec a b (constant (F := Ideal) (⟨2, ![M, N]⟩ : Shape) .f32 0x00000000#32) (ix2 p q)
      = ∑ k : Fin K, a (ix2 p k) * b (ix2 k q) := by
  simp only [matmul]
  rw [Ideal.matmul_constant_zero_apply]
  exact plain_sum M K N a b p q

end Cert.LibDense

end
-- ==== Proof.LibGatherRows.lean ====
/-
  A gather of whole rows read at an index. For an operand [N, C] (or a flat operand [N]) and a column [R, 1] of start
  indices, the gather that collapses the row axis and keeps the columns reads, at (r, c), the operand's row at the start
  index idx[r, 0] taken as a signed integer and clamped into [0, N - 1], column c.
-/
import Idealize.ShloMosaic.PureOps.Ideal
import Idealize.ShloMosaic.Lib.ValueIdx

noncomputable section

namespace Idealize.ShloMosaic.GatherRows

open Idealize.ShloMosaic Idealize.ShloMosaic.ValueIdx

/-- A natural number clamped at `N - 1` is below a positive `N`. -/
theorem clamp_lt {N : Nat} (hN : 0 < N) (k : Nat) : min k (N - 1) < N := by omega

/-! ## Rows of a matrix at a column of start indices -/

section Rows
variable {α : Type}

/-- The dimension numbers of `x[idx[:, 0], :]` for an operand `[N, C]`, a column `[R, 1]` of start indices and a result
    `[R, C]`: the row axis collapsed and mapped by the start index, the column axis kept whole as the result's offset
    axis; their conditions `wf` are decided on a program's literal shapes. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The conditions hold only for an operand with at least one row: a slice of one row fits. -/
theorem rows_pos {N R C : Nat} (wf : GatherDims.WF ⟨2, ![N, C]⟩ ⟨2, ![R, 1]⟩ ⟨2, ![R, C]⟩ [1] [0] [] [0] [] 1 ![1, C]) :
    0 < N :=
  (rowDims N R C wf).slice_le 0

/-- THE ROW GATHER READ AT `(r, c)`: the operand's row at the start index `idx[r, 0]`, read signed and clamped into
    `[0, N − 1]`, at column `c`. -/
theorem gather_rows_apply {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowDims N R C wf) x idx (ix2 r c)
      = x (ix2 ⟨min (idx (ix2 r 0)).toInt.toNat (N - 1), clamp_lt (rows_pos wf) _⟩ c) := by
  unfold Host.gather
  congr 1
  funext a
  refine Fin.ext ?_
  match a with
  | ⟨0, _⟩ =>
    show (rowDims N R C wf).start (ix2 r c) idx 0 + (rowDims N R C wf).batchCoord (ix2 r c) 0
      + (rowDims N R C wf).offCoord (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 r c) ⟨List.idxOf (0 : Fin 2) (rowDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi]
    rfl
  | ⟨1, _⟩ =>
    show (rowDims N R C wf).start (ix2 r c) idx 1 + (rowDims N R C wf).batchCoord (ix2 r c) 1
      + (rowDims N R C wf).offCoord (ix2 r c) 1 = c.val
    rw [GatherDims.batchCoord_eq_zero _ _ _ List.not_mem_nil]
    unfold GatherDims.start
    rw [dif_neg (show (1 : Fin 2) ∉ (rowDims N R C wf).startIndexMap from (by decide : (1 : Fin 2) ∉ ([0] : List (Fin 2))))]
    simp only [Nat.add_zero, Nat.zero_add]
    rfl

end Rows

/-! ## A flat array at a column of start indices -/

section Flat
variable {α : Type}

/-- The dimension numbers of `x[idx[:, 0]]` for a flat operand `[N]`, a column `[R, 1]` of start indices and a result
    `[R]`: the operand's one axis collapsed and mapped by the start index, no offset axis; their conditions `wf` are
    decided on a program's literal shapes. -/
abbrev flatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The conditions hold only for a non-empty operand: a slice of one element fits. -/
theorem flat_pos {N R : Nat} (wf : GatherDims.WF ⟨1, ![N]⟩ ⟨2, ![R, 1]⟩ ⟨1, ![R]⟩ [] [0] [] [0] [] 1 ![1]) : 0 < N :=
  (flatDims N R wf).slice_le 0

/-- THE FLAT GATHER READ AT `r`: the operand at the start index `idx[r, 0]`, read signed and clamped into
    `[0, N − 1]`. -/
theorem gather_flat_apply {N R w : Nat} (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (flatDims N R wf) x idx (ix1 r)
      = x (ix1 ⟨min (idx (ix2 r 0)).toInt.toNat (N - 1), clamp_lt (flat_pos wf) _⟩) := by
  unfold Host.gather
  congr 1
  funext a
  obtain rfl : a = 0 := Subsingleton.elim _ _
  refine Fin.ext ?_
  show (flatDims N R wf).start (ix1 r) idx 0 + (flatDims N R wf).batchCoord (ix1 r) 0
    + (flatDims N R wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatDims N R wf).startIndexMap from List.mem_singleton.mpr rfl)]
  have hsi : (flatDims N R wf).siIdx (ix1 r) ⟨List.idxOf (0 : Fin 1) (flatDims N R wf).startIndexMap,
      List.idxOf_lt_length_iff.2 (List.mem_singleton.mpr rfl)⟩ = ix2 r 0 := by
    funext b; refine Fin.ext ?_
    match b with
    | ⟨0, _⟩ => rfl
    | ⟨1, _⟩ => rfl
  rw [hsi]
  rfl

end Flat

/-! ## Two gathers in a row -/

section Compose
variable {α : Type}

/-- Rows of gathered rows are gathered rows: taking the rows of `x[zc[:, 0], :]` at the start indices `idx` is taking the
    rows of `x` at any column `zr` of start indices that reads, at every `r`, the column `zc` at `idx[r, 0]` read signed
    and clamped into `[0, N − 1]` (for instance an elementwise function of a flat array gathered at `idx`, when `zc` is
    the same function of the flat array). -/
theorem gather_rows_rows {M N R C w w' : Nat}
    (wf₁ : GatherDims.WF ⟨2, ![M, C]⟩ ⟨2, ![N, 1]⟩ ⟨2, ![N, C]⟩ [1] [0] [] [0] [] 1 ![1, C])
    (wf₂ : GatherDims.WF ⟨2, ![N, C]⟩ ⟨2, ![R, 1]⟩ ⟨2, ![R, C]⟩ [1] [0] [] [0] [] 1 ![1, C])
    (wf₃ : GatherDims.WF ⟨2, ![M, C]⟩ ⟨2, ![R, 1]⟩ ⟨2, ![R, C]⟩ [1] [0] [] [0] [] 1 ![1, C])
    (x : (⟨2, ![M, C]⟩ : Shape).Idx → α) (zc : IVec ⟨2, ![N, 1]⟩ w') (idx : IVec ⟨2, ![R, 1]⟩ w)
    (zr : IVec ⟨2, ![R, 1]⟩ w')
    (h : ∀ r : Fin R, zr (ix2 r 0) = zc (ix2 ⟨min (idx (ix2 r 0)).toInt.toNat (N - 1), clamp_lt (rows_pos wf₂) _⟩ 0)) :
    Host.gather (rowDims N R C wf₂) (Host.gather (rowDims M N C wf₁) x zc) idx
      = Host.gather (rowDims M R C wf₃) x zr := by
  funext i
  obtain ⟨r, c, rfl⟩ : ∃ (r : Fin R) (c : Fin C), i = ix2 r c := ⟨i 0, i 1, eq_ix2 i⟩
  rw [gather_rows_apply, gather_rows_apply, gather_rows_apply, h r]

end Compose

end Idealize.ShloMosaic.GatherRows

end
-- ==== Proof.EdgeMessages.lean ====
import proofs.«143594_j8263517078054_1_alg».proof.Proof.LibContract
import proofs.«143594_j8263517078054_1_alg».proof.Proof.LibGatherRows
import Idealize.ShloMosaic.Lib.Pipeline.Value
import Idealize.ShloMosaic.Lib.ValueIdx
import Idealize.ShloMosaic.PureOps.Ideal.Laws

/-!
# Messages along the edges of a graph, on the extended reals

A graph has 100000 nodes with 64 features each and 1600000 edges. Edge `e` leaves the node `node idx e` that its start
index names (the index read signed and clamped into the node range) and carries the message

  `message[e, q] = (∑ k, feat[node e, k] · W[k, q] + b[q]) · attn[e]`:

the source node's features through the dense layer `· W + b`, scaled by the edge's attention weight.

The layer acts row by row, so it does not matter whether the rows are taken from `feat` before the layer or from
`feat · W + b` after it. Both orders are read here at an entry:

* `scaledRows g a W b₂`: the rows of an already gathered `g` through the layer and scaled by `a`; a block of rows
  computed by a matrix product into zero, a broadcast bias row and a broadcast column of weights is `scaledRows` of the
  block (`block_eq`), and `scaledRows` of the gathered rows is `message` (`scaledRows_gather`);
* the layer applied to every node first, its rows gathered and scaled afterwards, is `message` too (`layer_gather_eq`).

No law beyond reading each operation at an entry is used: the two sums have the same terms in the same order.
-/

noncomputable section

namespace Cert.EdgeMessages

open Idealize.ShloMosaic Idealize.ShloMosaic.ValueIdx Idealize.ShloMosaic.GatherRows Cert.LibDense

/-- An `m × n` array of extended reals. -/
abbrev Mat (m n : Nat) := (⟨2, ![m, n]⟩ : Shape).Idx → EReal
/-- A vector of `n` extended reals. -/
abbrev Row (n : Nat) := (⟨1, ![n]⟩ : Shape).Idx → EReal

/-- The node edge `e` leaves: its start index read as a signed integer and clamped into `[0, 99999]`. -/
def node (idx : IVec ⟨2, ![1600000, 1]⟩ 32) (e : Fin 1600000) : Fin 100000 :=
  ⟨min (idx (ix2 e 0)).toInt.toNat (100000 - 1), clamp_lt (by decide) _⟩

/-- The message of every edge: the source node's row through `· W + b`, scaled by the edge's weight. -/
def message (feat : Mat 100000 64) (attn : Mat 1600000 1) (idx : IVec ⟨2, ![1600000, 1]⟩ 32) (W : Mat 64 64)
    (b : Row 64) : Mat 1600000 64 :=
  fun i => ((∑ k : Fin 64, feat (ix2 (node idx (i 0)) k) * W (ix2 k (i 1))) + b (ix1 (i 1))) * attn (ix2 (i 0) 0)

/-- Rows already gathered, through the layer (the bias laid out as a `1 × 64` row) and scaled by a column of weights. -/
def scaledRows {R : Nat} (g : Mat R 64) (a : Mat R 1) (W : Mat 64 64) (b₂ : Mat 1 64) : Mat R 64 :=
  fun i => ((∑ k : Fin 64, g (ix2 (i 0) k) * W (ix2 k (i 1))) + b₂ (ix2 0 (i 1))) * a (ix2 (i 0) 0)

theorem scaledRows_apply {R : Nat} (g : Mat R 64) (a : Mat R 1) (W : Mat 64 64) (b₂ : Mat 1 64) (r : Fin R) (q : Fin 64) :
    scaledRows g a W b₂ (ix2 r q) = ((∑ k : Fin 64, g (ix2 r k) * W (ix2 k q)) + b₂ (ix2 0 q)) * a (ix2 r 0) := rfl

/-- An entry of `scaledRows` depends on one row of the gathered array, one weight, one column of `W` and one bias entry:
    two instances agree at two entries whenever those agree. -/
theorem scaledRows_congr {R R' : Nat} (g : Mat R 64) (a : Mat R 1) (W : Mat 64 64) (b₂ : Mat 1 64) (g' : Mat R' 64)
    (a' : Mat R' 1) (W' : Mat 64 64) (b₂' : Mat 1 64) (j : (⟨2, ![R, 64]⟩ : Shape).Idx) (i : (⟨2, ![R', 64]⟩ : Shape).Idx)
    (hg : ∀ k : Fin 64, g (ix2 (j 0) k) = g' (ix2 (i 0) k)) (ha : a (ix2 (j 0) 0) = a' (ix2 (i 0) 0))
    (hw : ∀ k : Fin 64, W (ix2 k (j 1)) = W' (ix2 k (i 1))) (hb : b₂ (ix2 0 (j 1)) = b₂' (ix2 0 (i 1))) :
    scaledRows g a W b₂ j = scaledRows g' a' W' b₂' i := by
  unfold scaledRows
  rw [ha, hb]
  congr 2
  exact Finset.sum_congr rfl fun k _ => by rw [hg k, hw k]

/-! ## A block of 6400 rows as a kernel computes it -/

/-- A `1 × 64` row broadcast over 6400 rows reads the row's entry `q` at `(p, q)`. -/
theorem rowBcast_apply {α : Type} (hb : (⟨2, ![1, 64]⟩ : Shape).Broadcasts ⟨2, ![6400, 64]⟩)
    (x : (⟨2, ![1, 64]⟩ : Shape).Idx → α) (p : Fin 6400) (q : Fin 64) :
    broadcastTo ⟨2, ![6400, 64]⟩ x hb (ix2 p q) = x (ix2 0 q) :=
  broadcastTo_apply x hb (ix2 p q) (ix2 (0 : Fin 1) q) (fun a => match a with
    | ⟨0, _⟩ => (if_pos rfl).symm
    | ⟨1, _⟩ => by show q.val = if (64 : Nat) = 1 then 0 else q.val; rw [if_neg (by decide)])

/-- A `6400 × 1` column broadcast over 64 columns reads the column's entry `p` at `(p, q)`. -/
theorem colBcast_apply {α : Type} (hb : (⟨2, ![6400, 1]⟩ : Shape).Broadcasts ⟨2, ![6400, 64]⟩)
    (x : (⟨2, ![6400, 1]⟩ : Shape).Idx → α) (p : Fin 6400) (q : Fin 64) :
    broadcastTo ⟨2, ![6400, 64]⟩ x hb (ix2 p q) = x (ix2 p 0) :=
  broadcastTo_apply x hb (ix2 p q) (ix2 p (0 : Fin 1)) (fun a => match a with
    | ⟨0, _⟩ => by show p.val = if (6400 : Nat) = 1 then 0 else p.val; rw [if_neg (by decide)]
    | ⟨1, _⟩ => (if_pos rfl).symm)

/-- The block a kernel computes — the product of the block's rows (rounded to bf16, the identity on the extended
    reals) with `W` into zero, plus the broadcast bias row, times the broadcast column of weights — is `scaledRows`
    of the block. -/
theorem block_eq (hc₀ : (⟨2, ![6400, 64]⟩ : Shape).ShapeCasts ⟨2, ![6400, 64]⟩) (ht : FTy.bf16.bits < FTy.f32.bits)
    (hc₃ : (⟨2, ![1, 64]⟩ : Shape).ShapeCasts ⟨2, ![1, 64]⟩) (hb₃ : (⟨2, ![1, 64]⟩ : Shape).Broadcasts ⟨2, ![6400, 64]⟩)
    (hb₁ : (⟨2, ![6400, 1]⟩ : Shape).Broadcasts ⟨2, ![6400, 64]⟩)
    (x₀ : FVec Ideal ⟨2, ![6400, 64]⟩ .f32) (x₁ : FVec Ideal ⟨2, ![6400, 1]⟩ .f32) (x₂ : FVec Ideal ⟨2, ![64, 64]⟩ .f32)
    (x₃ : FVec Ideal ⟨2, ![1, 64]⟩ .f32) :
    mulf (addf (matmul (DotDims.plain 6400 64 64) none (truncf .bf16 (shapeCast ⟨2, ![6400, 64]⟩ x₀ hc₀) ht)
          (truncf .bf16 x₂ ht) (constant (F := Ideal) (⟨2, ![6400, 64]⟩ : Shape) .f32 0x00000000#32))
        (broadcastTo ⟨2, ![6400, 64]⟩ (shapeCast ⟨2, ![1, 64]⟩ x₃ hc₃) hb₃)) (broadcastTo ⟨2, ![6400, 64]⟩ x₁ hb₁)
      = scaledRows x₀ x₁ x₂ x₃ := by
  rw [shapeCast_self x₀, shapeCast_self x₃]
  funext i
  obtain ⟨p, q, rfl⟩ : ∃ (p : Fin 6400) (q : Fin 64), i = ix2 p q := ⟨i 0, i 1, eq_ix2 i⟩
  refine (mulf_apply _ _ _).trans ?_
  rw [addf_apply, matmul_plain_zero_apply, rowBcast_apply, colBcast_apply, scaledRows_apply]
  rfl

/-! ## The two orders of gathering and the layer -/

/-- Gathered first: `scaledRows` of the rows of `feat` at the edges' start indices, the bias reshaped to a row, is
    `message`. -/
theorem scaledRows_gather (wf : GatherDims.WF ⟨2, ![100000, 64]⟩ ⟨2, ![1600000, 1]⟩ ⟨2, ![1600000, 64]⟩ [1] [0] [] [0] [] 1 ![1, 64])
    (hc : (⟨1, ![64]⟩ : Shape).ShapeCasts ⟨2, ![1, 64]⟩) (feat : Mat 100000 64) (attn : Mat 1600000 1)
    (idx : IVec ⟨2, ![1600000, 1]⟩ 32) (W : Mat 64 64) (b : Row 64) :
    scaledRows (Host.gather (rowDims 100000 1600000 64 wf) feat idx) attn W (shapeCast ⟨2, ![1, 64]⟩ b hc)
      = message feat attn idx W b := by
  funext i
  obtain ⟨e, q, rfl⟩ : ∃ (e : Fin 1600000) (q : Fin 64), i = ix2 e q := ⟨i 0, i 1, eq_ix2 i⟩
  rw [scaledRows_apply]
  have hb : shapeCast ⟨2, ![1, 64]⟩ b hc (ix2 (0 : Fin 1) q) = b (ix1 q) := by
    refine shapeCast_apply b hc (ix2 (0 : Fin 1) q) (ix1 q) ?_
    rw [Shape.rowMajor_val_one, Shape.rowMajor_val_two]
    show q.val = 0 * 64 + q.val
    omega
  rw [hb]
  simp only [gather_rows_apply]
  rfl

/-- The layer first: `feat · W + b` on every node, its rows gathered at the edges' start indices and scaled by the
    broadcast weights, is `message`. -/
theorem layer_gather_eq (wf : GatherDims.WF ⟨2, ![100000, 64]⟩ ⟨2, ![1600000, 1]⟩ ⟨2, ![1600000, 64]⟩ [1] [0] [] [0] [] 1 ![1, 64])
    (h₁ : (⟨1, ![64]⟩ : Shape).BroadcastsInDim ⟨2, ![1, 64]⟩ ![1])
    (h₂ : (⟨2, ![1, 64]⟩ : Shape).BroadcastsInDim ⟨2, ![100000, 64]⟩ ![0, 1])
    (h₃ : (⟨2, ![1600000, 1]⟩ : Shape).BroadcastsInDim ⟨2, ![1600000, 64]⟩ ![0, 1])
    (feat : FVec Ideal ⟨2, ![100000, 64]⟩ .f32) (attn : FVec Ideal ⟨2, ![1600000, 1]⟩ .f32)
    (idx : IVec ⟨2, ![1600000, 1]⟩ 32) (W : FVec Ideal ⟨2, ![64, 64]⟩ .f32) (b : FVec Ideal ⟨1, ![64]⟩ .f32) :
    mulf (Host.gather (rowDims 100000 1600000 64 wf)
          (addf (Host.dotGeneral (DotDims.plain 100000 64 64) none feat W)
            (broadcastInDim ⟨2, ![100000, 64]⟩ ![0, 1] h₂ (broadcastInDim ⟨2, ![1, 64]⟩ ![1] h₁ b))) idx)
        (broadcastInDim ⟨2, ![1600000, 64]⟩ ![0, 1] h₃ attn)
      = message feat attn idx W b := by
  funext i
  obtain ⟨e, q, rfl⟩ : ∃ (e : Fin 1600000) (q : Fin 64), i = ix2 e q := ⟨i 0, i 1, eq_ix2 i⟩
  refine (mulf_apply _ _ _).trans ?_
  have hw : broadcastInDim ⟨2, ![1600000, 64]⟩ ![0, 1] h₃ attn (ix2 e q) = attn (ix2 e 0) :=
    broadcastInDim_apply _ h₃ attn (ix2 e q) (ix2 e (0 : Fin 1)) (fun a => match a with
      | ⟨0, _⟩ => by show e.val = if (1600000 : Nat) = 1 then 0 else e.val; rw [if_neg (by decide)]
      | ⟨1, _⟩ => (if_pos rfl).symm)
  have hbias : ∀ p : Fin 100000, broadcastInDim ⟨2, ![100000, 64]⟩ ![0, 1] h₂ (broadcastInDim ⟨2, ![1, 64]⟩ ![1] h₁ b) (ix2 p q)
      = b (ix1 q) := fun p =>
    (broadcastInDim_apply _ h₂ _ (ix2 p q) (ix2 (0 : Fin 1) q) (fun a => match a with
      | ⟨0, _⟩ => (if_pos rfl).symm
      | ⟨1, _⟩ => by show q.val = if (64 : Nat) = 1 then 0 else q.val; rw [if_neg (by decide)])).trans
    (broadcastInDim_apply _ h₁ b (ix2 (0 : Fin 1) q) (ix1 q) (fun a => match a with
      | ⟨0, _⟩ => by show q.val = if (64 : Nat) = 1 then 0 else q.val; rw [if_neg (by decide)]))
  rw [hw, gather_rows_apply, addf_apply, dotGeneral_plain_apply, hbias]
  rfl

/-! ## Around the messages: the start indices from the source ids, and the sum into the destination nodes -/

/-- The column of start indices made from the edges' source ids: a negative id counts from the end (`id + 100000`), any
    other id is kept; laid out as a `1600000 × 1` column. -/
def startIdx (src : IVec ⟨1, ![1600000]⟩ 32) : IVec ⟨2, ![1600000, 1]⟩ 32 :=
  broadcastInDim ⟨2, ![1600000, 1]⟩ ![0] (by decide)
    (select (cmpi .slt src (broadcastInDim ⟨1, ![1600000]⟩ ![] (by decide) (constantI ⟨0, ![]⟩ 32 0#32)))
      (addi src (broadcastInDim ⟨1, ![1600000]⟩ ![] (by decide) (constantI ⟨0, ![]⟩ 32 100000#32))) src)

/-- The dimension numbers of a scatter of `1600000` rows of `64` into the rows of a `100000 × 64` array. -/
def rowScatter : ScatterDims ⟨2, ![100000, 64]⟩ ⟨2, ![1600000, 1]⟩ ⟨2, ![1600000, 64]⟩ where
  updateWindowDims := [1]
  insertedWindowDims := [0]
  scatterDimsToOperandDims := [0]
  indexVectorDim := 1
  wf := by decide

/-- Every edge's message added into the row of its destination node, starting from zero. -/
def scatterSum (dst : IVec ⟨1, ![1600000]⟩ 32) (u : Mat 1600000 64) : Mat 100000 64 :=
  Host.scatterAdd (F := Ideal) (φ := .f32) rowScatter
    (broadcastInDim ⟨2, ![100000, 64]⟩ ![] (by decide) (constant (F := Ideal) ⟨0, ![]⟩ .f32 0x00000000#32))
    (broadcastInDim ⟨2, ![1600000, 1]⟩ ![0] (by decide) dst) u

end Cert.EdgeMessages

end
-- ==== Proof.KernelBlocks.lean ====
import proofs.«143594_j8263517078054_1_alg».proof.Proof.Gen.KernelIdeal.Frame
import proofs.«143594_j8263517078054_1_alg».proof.Proof.EdgeMessages
import Idealize.ShloMosaic.Lib.Pipeline.Value

/-!
# The message array the kernel region leaves

The region runs over 250 blocks of 6400 edges. At block `t` the body reads rows `6400·t … 6400·t + 6399` of the
gathered features and of the edge weights, the whole of `W` and the whole bias row, and writes the same rows of the
message array. Each block written is `scaledRows` of the block read (`payload_eq`), and an entry of `scaledRows` depends
on its own row only, so block `t` written back is block `t` of `scaledRows` of the WHOLE arrays (`flushed_eq`). The 250
blocks tile the 1600000 rows (`covered`), hence the array after the region is `scaledRows` of the arrays the region
found (`final`).
-/

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx Cert.EdgeMessages

variable (m : (ℓ : Loc nD τ sig) → Buf (Elt Ideal) ℓ) (ρ : Dev nD → PrngReg)

theorem zeroOffsets : (![0, 0] : Fin 2 → Nat) = fun _ => 0 := funext fun a => by fin_cases a <;> rfl

/-- The body's one stored value is `scaledRows` of the four blocks it loads. -/
theorem payload_eq (x0 : Vec Ideal S6400x64 .f32) (x1 : Vec Ideal S6400x1 .f32) (x2 : Vec Ideal S64x64 .f32)
    (x3 : Vec Ideal S1x64 .f32) : k0_pay1 x0 x2 x3 x1 = scaledRows x0 x1 x2 x3 :=
  block_eq (by decide) (by decide) (by decide) (by decide) (by decide) x0 x1 x2 x3

/-- The message array as a function of the arrays the region finds: the gathered rows, the weights, `W`, the bias row. -/
abbrev G (c : Dev nD) : S1600000x64.Idx → EReal :=
  scaledRows (V m c main_v6) (V m c main_arg1) (V m c main_arg4) (V m c main_v7)

/-- The printed index maps over the 250 points: the gathered rows, the weights and the messages move together, one
    block of rows per point; `W` and the bias row stay in place. -/
theorem idx_facts : ∀ t : Fin cfg0.N, win0_4.index t (0 : Fin 2) = t.val ∧ win0_4.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- WHAT POINT `t` WRITES BACK is block `t` of `G`. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero zeroOffsets]
  simp only [View.ld_unit_zero (S := S6400x64) zeroOffsets, View.ld_unit_zero (S := S6400x1) zeroOffsets,
    View.ld_unit_zero (S := S64x64) zeroOffsets, View.ld_unit_zero (S := S1x64) zeroOffsets]
  rw [payload_eq]
  obtain ⟨e40, e41, e00, e01, e10, e11, e20, e21, e30, e31⟩ := idx_facts t
  funext j
  show scaledRows (iblk m c 0 t) (iblk m c 1 t) (iblk m c 2 t) (iblk m c 3 t) j
    = scaledRows (V m c main_v6) (V m c main_arg1) (V m c main_arg4) (V m c main_v7) (((cfg0.win 4).blk t).view.emb j)
  have hj0 : (j 0).val < 6400 := (j 0).isLt
  have hj1 : (j 1).val < 64 := (j 1).isLt
  -- the message block's index inside the array: row 6400·t + (row inside the block), the same column
  have r0 : ((((cfg0.win 4).blk t).view.emb j) 0).val = t.val * 6400 + (j 0).val := by
    show win0_4.index t (0 : Fin 2) * 6400 + 1 * (j 0).val = _; omega
  have r1 : ((((cfg0.win 4).blk t).view.emb j) 1).val = (j 1).val := by
    show win0_4.index t (1 : Fin 2) * 64 + 1 * (j 1).val = _; omega
  refine scaledRows_congr (iblk m c 0 t) (iblk m c 1 t) (iblk m c 2 t) (iblk m c 3 t)
    (V m c main_v6) (V m c main_arg1) (V m c main_arg4) (V m c main_v7) j (((cfg0.win 4).blk t).view.emb j) ?_ ?_ ?_ ?_
  · intro k
    show V m c main_v6 (((cfg0.win 0).blk t).view.emb (ix2 (j 0) k)) = V m c main_v6 _
    refine congrArg (V m c main_v6) (funext fun a => Fin.ext ?_)
    match a with
    | ⟨0, _⟩ => show win0_0.index t (0 : Fin 2) * 6400 + 1 * (j 0).val = ((((cfg0.win 4).blk t).view.emb j) 0).val; omega
    | ⟨1, _⟩ => show win0_0.index t (1 : Fin 2) * 64 + 1 * k.val = k.val; omega
  · show V m c main_arg1 (((cfg0.win 1).blk t).view.emb (ix2 (j 0) 0)) = V m c main_arg1 _
    refine congrArg (V m c main_arg1) (funext fun a => Fin.ext ?_)
    match a with
    | ⟨0, _⟩ => show win0_1.index t (0 : Fin 2) * 6400 + 1 * (j 0).val = ((((cfg0.win 4).blk t).view.emb j) 0).val; omega
    | ⟨1, _⟩ => show win0_1.index t (1 : Fin 2) * 1 + 1 * 0 = 0; omega
  · intro k
    show V m c main_arg4 (((cfg0.win 2).blk t).view.emb (ix2 k (j 1))) = V m c main_arg4 _
    refine congrArg (V m c main_arg4) (funext fun a => Fin.ext ?_)
    match a with
    | ⟨0, _⟩ => show win0_2.index t (0 : Fin 2) * 64 + 1 * k.val = k.val; omega
    | ⟨1, _⟩ => show win0_2.index t (1 : Fin 2) * 64 + 1 * (j 1).val = ((((cfg0.win 4).blk t).view.emb j) 1).val; omega
  · show V m c main_v7 (((cfg0.win 3).blk t).view.emb (ix2 0 (j 1))) = V m c main_v7 _
    refine congrArg (V m c main_v7) (funext fun a => Fin.ext ?_)
    match a with
    | ⟨0, _⟩ => show win0_3.index t (0 : Fin 2) * 1 + 1 * 0 = 0; omega
    | ⟨1, _⟩ => show win0_3.index t (1 : Fin 2) * 64 + 1 * (j 1).val = ((((cfg0.win 4).blk t).view.emb j) 1).val; omega

/-- An index of the message array is in point `t`'s block iff each coordinate is in the block's range on its axis. -/
theorem mem_blk (t : Fin cfg0.N) (i : S1600000x64.Idx) :
    i ∈ ((cfg0.win 4).blk t).view.set ↔ ∀ a : Fin 2, win0_4.index t a * S6400x64.size a ≤ (i a).val ∧ (i a).val < win0_4.index t a * S6400x64.size a + S6400x64.size a := by
  show i ∈ ((View.whole main_v8).slice (win0_4.rect t)).set ↔ _
  rw [View.set_slice_whole, Rect.mem_set_unit]
  exact Iff.rfl

/-- Every edge's row lies in the block of the point `row / 6400`. -/
theorem covered (i : S1600000x64.Idx) :
    ∃ t : Fin cfg0.N, (cfg0.win 4).flush t = true ∧ i ∈ ((cfg0.win 4).blk t).view.set := by
  have hi0 : (i 0).val < 1600000 := (i 0).isLt
  have hi1 : (i 1).val < 64 := (i 1).isLt
  have hN : cfg0.N = 250 := N_0
  let t : Fin cfg0.N := ⟨(i 0).val / 6400, by rw [hN]; omega⟩
  obtain ⟨e40, e41, -⟩ := idx_facts t
  have ht : t.val = (i 0).val / 6400 := rfl
  refine ⟨t, flush0_4 t, ?_⟩
  rw [mem_blk]
  intro a
  match a with
  | ⟨0, _⟩ => show win0_4.index t (0 : Fin 2) * 6400 ≤ (i 0).val ∧ (i 0).val < win0_4.index t (0 : Fin 2) * 6400 + 6400; omega
  | ⟨1, _⟩ => show win0_4.index t (1 : Fin 2) * 64 ≤ (i 1).val ∧ (i 1).val < win0_4.index t (1 : Fin 2) * 64 + 64; omega

/-- THE MESSAGE ARRAY after the region is `G`. -/
theorem final (c : Dev nD) : (dats m 0 c).arrAt 4 cfg0.N = G m c :=
  (dats m 0 c).arrAt_eq_of_cover 4 (G m c) (fun t _ => flushed_eq m c t) covered

end Cert.KernelIdeal.EdgeValue

end
-- ==== Proof.KernelRun.lean ====
import proofs.«143594_j8263517078054_1_alg».proof.Proof.KernelBlocks
import Idealize.ShloMosaic.Lib.StableHlo.Run

/-!
# The kernel program's result

Before the region the program makes the start indices from the source ids, gathers the rows of `feat` at them and lays
the bias out as a `1 × 64` row; the region leaves `scaledRows` of what it found (`final`), which is `message`
(`messages_eq`); after the region the messages are added into the rows of their destination nodes (`tail_eq`). So the
program ends with `scatterSum dst (message feat attn (startIdx src) W b)` in its result, its arguments unchanged (`run`).
-/

noncomputable section

namespace Cert.KernelIdeal.EdgeValue

open Cert.KernelIdeal Cert.KernelIdeal.Gen Idealize.ShloMosaic Idealize.ShloMosaic.TcCoe Idealize.SL.Sem
open Idealize.ShloMosaic.Pipeline (Dat)
open Idealize.ShloMosaic.ValueIdx Idealize.ShloMosaic.GatherRows Cert.EdgeMessages

variable (m : (ℓ : Loc nD τ sig) → Buf (Elt Ideal) ℓ) (ρ : Dev nD → PrngReg)

/-- The region finds, in its first window's array, the rows of `feat` gathered at the start indices. -/
theorem V_gathered (c : Dev nD) : (V m c main_v6 : S1600000x64.Idx → EReal)
    = Host.gather (rowDims 100000 1600000 64 (by decide)) (m ((c : Thread nD τ).loc main_arg0))
        (startIdx (m ((c : Thread nD τ).loc main_arg2))) := by
  show StableHlo.after hostOps0 (fun b => m (c, b)) (Proc.devRef .tc main_v6) = _
  after_results
  rfl

/-- And in its fourth window's array the bias as a `1 × 64` row. -/
theorem V_biasRow (c : Dev nD) : (V m c main_v7 : S1x64.Idx → EReal)
    = shapeCast S1x64 (m ((c : Thread nD τ).loc main_arg5)) (by decide : S64.ShapeCasts S1x64) := by
  show StableHlo.after hostOps0 (fun b => m (c, b)) (Proc.devRef .tc main_v7) = _
  after_results
  rfl

/-- The message array after the region, as a function of the program's arguments. -/
theorem messages_eq (c : Dev nD) : (dats m 0 c).arrAt 4 cfg0.N
    = message (m ((c : Thread nD τ).loc main_arg0)) (m ((c : Thread nD τ).loc main_arg1))
        (startIdx (m ((c : Thread nD τ).loc main_arg2))) (m ((c : Thread nD τ).loc main_arg4))
        (m ((c : Thread nD τ).loc main_arg5)) := by
  rw [final]
  show scaledRows (V m c main_v6) (V m c main_arg1) (V m c main_arg4) (V m c main_v7) = _
  rw [V_gathered, V_biasRow, V_main_arg1, V_main_arg4]
  exact scaledRows_gather (by decide) (by decide) _ _ _ _ _

/-- The lines after the region add the message array's rows into the destination nodes' rows. -/
theorem tail_eq (c : Dev nD) : Pipeline.afterTail₀ cfgs (dats m) 0 (V0 m) [hostOps1] c main_v11
    = scatterSum (m ((c : Thread nD τ).loc main_arg3)) ((dats m 0 c).arrAt 4 cfg0.N) := by
  unfold Pipeline.afterTail₀
  show StableHlo.after hostOps1 _ (Proc.devRef .tc main_v11) = _
  after_results
  rw [Pipeline.withArrays_arr spec0 launch0.win.arr_inj c _ _ 4,
    Pipeline.withArrays_of_ne _ c (V0 m c) _ main_arg3 (by exact (by decide : ∀ w, Pipeline.arrRef spec0 w ≠ main_arg3))]
  rw [show V0 m c (Proc.devRef .tc main_arg3) = m ((c : Thread nD τ).loc main_arg3) from V_main_arg3 m c]
  rfl

/-- THE RUN: every weakly fair execution of the kernel program ends with the messages summed into their destination
    nodes in its result, and its arguments as launched. -/
theorem run : θ_run defs (onTc (τ := τ) (main (F := Ideal))) ⟨m, fun _ => 0, ρ⟩ fun r => ∀ c : Dev nD,
      r.2.mem ((c.tc : Thread nD τ).loc main_v11)
        = scatterSum (m ((c.tc : Thread nD τ).loc main_arg3))
            (message (m ((c.tc : Thread nD τ).loc main_arg0)) (m ((c.tc : Thread nD τ).loc main_arg1))
              (startIdx (m ((c.tc : Thread nD τ).loc main_arg2))) (m ((c.tc : Thread nD τ).loc main_arg4))
              (m ((c.tc : Thread nD τ).loc main_arg5)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v11 (Pipeline.mem_restRefs_of main_v11 (by decide) (by decide))).trans
        ((tail_eq m c).trans (congrArg (scatterSum (m ((c.tc : Thread nD τ).loc main_arg3))) (messages_eq m c))),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 2).trans (((dats m 0 c).arrAt_in 2 rfl _).trans ((A_eq m c 2).trans (V_main_arg4 m c))),
      ((h c).2 main_arg5 (Pipeline.mem_restRefs_of main_arg5 (by decide) (by decide))).trans (W_main_arg5 m (dats m) c)⟩)
    (run_main m ρ)

end Cert.KernelIdeal.EdgeValue

end
-- ==== Proof.ReferenceValue.lean ====
import proofs.«143594_j8263517078054_1_alg».proof.Proof.Gen.ReferenceIdeal.Read
import proofs.«143594_j8263517078054_1_alg».proof.Proof.EdgeMessages

/-!
# The reference program's result

The reference applies the layer `· W + b` to every node, gathers the rows of the result at the start indices made from
the source ids, scales each by its edge's weight and adds the rows into their destination nodes: its result is
`scatterSum dst (message feat attn (startIdx src) W b)`, the messages read entry by entry (`layer_gather_eq`).
-/

noncomputable section

namespace Cert.ReferenceIdeal.EdgeValue

open Cert.ReferenceIdeal Cert.ReferenceIdeal.Gen Idealize.ShloMosaic Idealize.ShloMosaic.TcCoe Idealize.SL.Sem
open Idealize.ShloMosaic.ValueIdx Idealize.ShloMosaic.GatherRows Cert.EdgeMessages

/-- The array the reference scatters is `message`. -/
theorem messages_eq (x0 : (⟨S100000x64, .f32⟩ : BufTy).Contents (Elt Ideal)) (x1 : (⟨S1600000x1, .f32⟩ : BufTy).Contents (Elt Ideal))
    (x2 : (⟨S1600000, .i32⟩ : BufTy).Contents (Elt Ideal)) (x4 : (⟨S64x64, .f32⟩ : BufTy).Contents (Elt Ideal))
    (x5 : (⟨S64, .f32⟩ : BufTy).Contents (Elt Ideal)) :
    Read.val_main_v12 (F := Ideal) x0 x1 x2 x4 x5 = message x0 x1 (startIdx x2) x4 x5 :=
  layer_gather_eq (by decide) (by decide) (by decide) (by decide) x0 x1 (startIdx x2) x4 x5

/-- The reference's result is the messages added into their destination nodes. -/
theorem result_eq (x0 : (⟨S100000x64, .f32⟩ : BufTy).Contents (Elt Ideal)) (x1 : (⟨S1600000x1, .f32⟩ : BufTy).Contents (Elt Ideal))
    (x2 x3 : (⟨S1600000, .i32⟩ : BufTy).Contents (Elt Ideal)) (x4 : (⟨S64x64, .f32⟩ : BufTy).Contents (Elt Ideal))
    (x5 : (⟨S64, .f32⟩ : BufTy).Contents (Elt Ideal)) :
    Read.val_main_v15 (F := Ideal) x0 x1 x2 x3 x4 x5 = scatterSum x3 (message x0 x1 (startIdx x2) x4 x5) := by
  unfold Read.val_main_v15
  rw [messages_eq]
  rfl

end Cert.ReferenceIdeal.EdgeValue

end
-- ==== Proof.lean ====
/-
  A graph-attention message pass over 100000 nodes and 1600000 edges, on the extended reals.

  Both programs compute, for every edge `e` from node `s(e)` (its source id, a negative id counted from the end, the result
  clamped into the node range) to node `d(e)`,

    message[e, q] = (∑ k, feat[s(e), k] · W[k, q] + b[q]) · attn[e]

  and add the messages into the rows of their destination nodes. The kernel program gathers the rows `feat[s(e), ·]` first
  and applies the layer `· W + b` and the scaling inside its region, 6400 edges per grid point; the reference applies the
  layer to every node and gathers rows of the result. The layer acts row by row, so the two orders give the same array
  entry by entry, with the same sums in the same order: no algebraic law of the extended reals is needed and the
  finiteness of the inputs is never used. The final scatter-add is the same operation of the same messages in both.

  `Proof/EdgeMessages.lean` states `message` and reads both orders at an entry; `Proof/KernelBlocks.lean` and
  `Proof/KernelRun.lean` read the kernel program's run (the region's blocks tile the message array; the host lines
  before and after it); `Proof/ReferenceValue.lean` reads the reference's. Nothing was rewritten when the kernel was
  idealized, so `preserves` is trivial.
-/
import proofs.«143594_j8263517078054_1_alg».proof.Defs
import proofs.«143594_j8263517078054_1_alg».proof.Proof.Gen.Kernel
import proofs.«143594_j8263517078054_1_alg».proof.Proof.Gen.Kernel.Skeleton
import proofs.«143594_j8263517078054_1_alg».proof.Proof.Gen.Kernel.Launch
import proofs.«143594_j8263517078054_1_alg».proof.Proof.Gen.Kernel.Points
import proofs.«143594_j8263517078054_1_alg».proof.Proof.Gen.Kernel.Frame
import proofs.«143594_j8263517078054_1_alg».proof.Proof.Gen.KernelIdeal
import proofs.«143594_j8263517078054_1_alg».proof.Proof.Gen.KernelIdeal.Skeleton
import proofs.«143594_j8263517078054_1_alg».proof.Proof.Gen.KernelIdeal.Launch
import proofs.«143594_j8263517078054_1_alg».proof.Proof.Gen.KernelIdeal.Points
import proofs.«143594_j8263517078054_1_alg».proof.Proof.Gen.KernelIdeal.Frame
import proofs.«143594_j8263517078054_1_alg».proof.Proof.Gen.ReferenceIdeal
import proofs.«143594_j8263517078054_1_alg».proof.Proof.Gen.Pre_finite_inputs
import proofs.«143594_j8263517078054_1_alg».proof.Proof.Gen.ReferenceIdeal.Run
import proofs.«143594_j8263517078054_1_alg».proof.Proof.Gen.ReferenceIdeal.Read
import proofs.«143594_j8263517078054_1_alg».proof.Proof.KernelRun
import proofs.«143594_j8263517078054_1_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program on the extended reals. -/
theorem frame_kernelIdeal : Cert.frame_KernelIdeal := fun m ρ _ => Cert.KernelIdeal.Gen.frame m ρ

/-- And the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From arguments that agree, both programs end with the messages summed into their destination nodes. -/
theorem algebraic : Cert.algebraic_KernelIdeal_ReferenceIdeal := by
  intro m ρ m' ρ' _ hagree
  refine ⟨_, Cert.KernelIdeal.EdgeValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact (Cert.ReferenceIdeal.Read.val_main_v15_eq _ _ _ _ _ _).trans (Cert.ReferenceIdeal.EdgeValue.result_eq _ _ _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
